-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x4096 : Shape := ⟨3, ![2, 4096, 4096]⟩
abbrev S2x4096 : Shape := ⟨2, ![2, 4096]⟩
abbrev S64x4096 : Shape := ⟨2, ![64, 4096]⟩
abbrev S4096x64 : Shape := ⟨2, ![4096, 64]⟩
abbrev S_ : Shape := ⟨0, ![]⟩

class Facts : Prop where
  bcast_S_S2x4096x4096 : S_.BroadcastsInDim S2x4096x4096 (![] : Fin 0 → Fin S2x4096x4096.rank)
  reducesTo_S2x4096x4096_S_d0_1_2 : S2x4096x4096.ReducesTo [0, 1, 2] S_
  h_S_ : 0 < S_.numel
  bcast_S_S2x4096 : S_.BroadcastsInDim S2x4096 (![] : Fin 0 → Fin S2x4096.rank)
  reducesTo_S2x4096_S_d0_1 : S2x4096.ReducesTo [0, 1] S_
  bcast_S_S64x4096 : S_.BroadcastsInDim S64x4096 (![] : Fin 0 → Fin S64x4096.rank)
  reducesTo_S64x4096_S_d0_1 : S64x4096.ReducesTo [0, 1] S_
  bcast_S_S4096x64 : S_.BroadcastsInDim S4096x64 (![] : Fin 0 → Fin S4096x64.rank)
  reducesTo_S4096x64_S_d0_1 : S4096x64.ReducesTo [0, 1] S_

variable [Facts]

def fn_part1 {F : FTy → Type} [FloatOps F] (main_v13 : IVec S_ 1) (main_v16 : IVec S4096x64 1) : IVec S_ 1 :=
  let main_c_5 : IVec S_ 1 := constantI S_ 1 1#1
  let main_v17 : IVec S_ 1 := (fun x v => Host.reduce IntOp.andi x v reducesTo_S4096x64_S_d0_1 h_S_) main_v16 main_c_5
  let main_v18 : IVec S_ 1 := andi main_v13 main_v17
  main_v18

def fn {F : FTy → Type} [FloatOps F] (main_arg0 : FVec F S2x4096x4096 .f32) (main_arg1 : FVec F S2x4096 .f32) (main_arg2 : FVec F S64x4096 .f32) (main_arg3 : FVec F S4096x64 .f32) : IVec S_ 1 :=
  let main_v0 : FVec F S2x4096x4096 .f32 := Host.absf main_arg0
  let main_cst : FVec F S_ .f32 := constant S_ .f32 0x7F800000#32
  let main_v1 : FVec F S2x4096x4096 .f32 := broadcastInDim S2x4096x4096 ![] bcast_S_S2x4096x4096 main_cst
  let main_v2 : IVec S2x4096x4096 1 := cmpf .olt main_v0 main_v1
  let main_c : IVec S_ 1 := constantI S_ 1 1#1
  let main_v3 : IVec S_ 1 := (fun x v => Host.reduce IntOp.andi x v reducesTo_S2x4096x4096_S_d0_1_2 h_S_) main_v2 main_c
  let main_v4 : FVec F S2x4096 .f32 := Host.absf main_arg1
  let main_cst_0 : FVec F S_ .f32 := constant S_ .f32 0x7F800000#32
  let main_v5 : FVec F S2x4096 .f32 := broadcastInDim S2x4096 ![] bcast_S_S2x4096 main_cst_0
  let main_v6 : IVec S2x4096 1 := cmpf .olt main_v4 main_v5
  let main_c_1 : IVec S_ 1 := constantI S_ 1 1#1
  let main_v7 : IVec S_ 1 := (fun x v => Host.reduce IntOp.andi x v reducesTo_S2x4096_S_d0_1 h_S_) main_v6 main_c_1
  let main_v8 : IVec S_ 1 := andi main_v3 main_v7
  let main_v9 : FVec F S64x4096 .f32 := Host.absf main_arg2
  let main_cst_2 : FVec F S_ .f32 := constant S_ .f32 0x7F800000#32
  let main_v10 : FVec F S64x4096 .f32 := broadcastInDim S64x4096 ![] bcast_S_S64x4096 main_cst_2
  let main_v11 : IVec S64x4096 1 := cmpf .olt main_v9 main_v10
  let main_c_3 : IVec S_ 1 := constantI S_ 1 1#1
  let main_v12 : IVec S_ 1 := (fun x v => Host.reduce IntOp.andi x v reducesTo_S64x4096_S_d0_1 h_S_) main_v11 main_c_3
  let main_v13 : IVec S_ 1 := andi main_v8 main_v12
  let main_v14 : FVec F S4096x64 .f32 := Host.absf main_arg3
  let main_cst_4 : FVec F S_ .f32 := constant S_ .f32 0x7F800000#32
  let main_v15 : FVec F S4096x64 .f32 := broadcastInDim S4096x64 ![] bcast_S_S4096x64 main_cst_4
  let main_v16 : IVec S4096x64 1 := cmpf .olt main_v14 main_v15
  fn_part1 (F := F) main_v13 main_v16
-- ==== Kernel.lean ====
abbrev S2x4096x4096 : Shape := ⟨3, ![2, 4096, 4096]⟩
abbrev S2x4096 : Shape := ⟨2, ![2, 4096]⟩
abbrev S64x4096 : Shape := ⟨2, ![64, 4096]⟩
abbrev S4096x64 : Shape := ⟨2, ![4096, 64]⟩
abbrev S8192x4096 : Shape := ⟨2, ![8192, 4096]⟩
abbrev S8192x1 : Shape := ⟨2, ![8192, 1]⟩
abbrev S512x4096 : Shape := ⟨2, ![512, 4096]⟩
abbrev S512x1 : Shape := ⟨2, ![512, 1]⟩
abbrev S512x64 : Shape := ⟨2, ![512, 64]⟩

abbrev nBuf : Space → Nat
  | .hbm => 8
  | .vmem => 8
  | .smem => 0
  | _ => 0

abbrev bufTy : (tb : Table) → Fin (tcTables nBuf tb) → BufTy
  | .hbm, ⟨0, _⟩ => ⟨S2x4096x4096, .f32⟩
  | .hbm, ⟨1, _⟩ => ⟨S2x4096, .f32⟩
  | .hbm, ⟨2, _⟩ => ⟨S64x4096, .f32⟩
  | .hbm, ⟨3, _⟩ => ⟨S4096x64, .f32⟩
  | .hbm, ⟨4, _⟩ => ⟨S8192x4096, .f32⟩
  | .hbm, ⟨5, _⟩ => ⟨S8192x1, .f32⟩
  | .hbm, ⟨6, _⟩ => ⟨S8192x4096, .f32⟩
  | .hbm, ⟨7, _⟩ => ⟨S2x4096x4096, .f32⟩
  | .local _ .vmem, ⟨0, _⟩ => ⟨S512x4096, .f32⟩
  | .local _ .vmem, ⟨1, _⟩ => ⟨S512x4096, .f32⟩
  | .local _ .vmem, ⟨2, _⟩ => ⟨S512x1, .f32⟩
  | .local _ .vmem, ⟨3, _⟩ => ⟨S512x1, .f32⟩
  | .local _ .vmem, ⟨4, _⟩ => ⟨S64x4096, .f32⟩
  | .local _ .vmem, ⟨5, _⟩ => ⟨S4096x64, .f32⟩
  | .local _ .vmem, ⟨6, _⟩ => ⟨S512x4096, .f32⟩
  | .local _ .vmem, ⟨7, _⟩ => ⟨S512x4096, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S2x4096x4096_S8192x4096 : S2x4096x4096.ShapeCasts S8192x4096
  shapeCasts_S2x4096_S8192x1 : S2x4096.ShapeCasts S8192x1
  shapeCasts_S8192x4096_S2x4096x4096 : S8192x4096.ShapeCasts S2x4096x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  bitsLt_bf16_f32 : FTy.bits .bf16 < FTy.bits .f32
  inb_S64x4096_S64x4096_0_0 : ∀ a, (![0, 0] : Fin 2 → Nat) a + S64x4096.size a ≤ S64x4096.size a
  h_S64x4096 : 0 < S64x4096.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x64 : S512x1.Broadcasts S512x64
  inb_S4096x64_S4096x64_0_0 : ∀ a, (![0, 0] : Fin 2 → Nat) a + S4096x64.size a ≤ S4096x64.size a
  h_S4096x64 : 0 < S4096x64.numel
  dot_S512x4096_S64x4096_S512x64_1_1_0_0_n_n_wf : DotDims.WF S512x4096 S64x4096 S512x64 [1] [1] [0] [0] [] []
  dot_S512x64_S4096x64_S512x4096_1_1_0_0_n_n_wf : DotDims.WF S512x64 S4096x64 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .f32 = 32 ∨ (Rect.block (s := S8192x1) S512x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x4096.size a ≤ S64x4096.size a
  hwx0_2 : ∀ i : grid0.Coords, EltTy.bits .f32 = 32 ∨ (Rect.block (s := S64x4096) S64x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x64.size a ≤ S4096x64.size a
  hwx0_3 : ∀ i : grid0.Coords, EltTy.bits .f32 = 32 ∨ (Rect.block (s := S4096x64) S4096x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x4096.size a ≤ S8192x4096.size a
  hwx0_4 : ∀ i : grid0.Coords, EltTy.bits .f32 = 32 ∨ (Rect.block (s := S8192x4096) S512x4096.size (cc0_transform_4 i) (hinb0_4 i)).WholeWords (EltTy.packing .f32)

variable [Facts₀]

def dot_S512x4096_S64x4096_S512x64_1_1_0_0_n_n : DotDims S512x4096 S64x4096 S512x64 where
  lhsContracting := [1]
  rhsContracting := [1]
  lhsNonContracting := [0]
  rhsNonContracting := [0]
  lhsBatch := []
  rhsBatch := []
  wf := dot_S512x4096_S64x4096_S512x64_1_1_0_0_n_n_wf
def dot_S512x64_S4096x64_S512x4096_1_1_0_0_n_n : DotDims S512x64 S4096x64 S512x4096 where
  lhsContracting := [1]
  rhsContracting := [1]
  lhsNonContracting := [0]
  rhsNonContracting := [0]
  lhsBatch := []
  rhsBatch := []
  wf := dot_S512x64_S4096x64_S512x4096_1_1_0_0_n_n_wf

abbrev win0_0 : Pipeline.Window sig grid0 :=
  Pipeline.Window.ofSpec (Memref.whole main_call0_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4096x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v2) S512x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x4096x4096 : Shape := ⟨3, ![2, 4096, 4096]⟩
abbrev S2x4096 : Shape := ⟨2, ![2, 4096]⟩
abbrev S64x4096 : Shape := ⟨2, ![64, 4096]⟩
abbrev S4096x64 : Shape := ⟨2, ![4096, 64]⟩
abbrev S2x4096x64 : Shape := ⟨3, ![2, 4096, 64]⟩
abbrev S_ : Shape := ⟨0, ![]⟩
abbrev S2x4096x1 : Shape := ⟨3, ![2, 4096, 1]⟩

abbrev nBuf : Space → Nat
  | .hbm => 20
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S2x4096, .f32⟩
  | .hbm, ⟨2, _⟩ => ⟨S64x4096, .f32⟩
  | .hbm, ⟨3, _⟩ => ⟨S4096x64, .f32⟩
  | .hbm, ⟨4, _⟩ => ⟨S2x4096x64, .f32⟩
  | .hbm, ⟨5, _⟩ => ⟨S2x4096x4096, .f32⟩
  | .hbm, ⟨6, _⟩ => ⟨S_, .f32⟩
  | .hbm, ⟨7, _⟩ => ⟨S2x4096x4096, .f32⟩
  | .hbm, ⟨8, _⟩ => ⟨S2x4096x4096, .f32⟩
  | .hbm, ⟨9, _⟩ => ⟨S_, .f32⟩
  | .hbm, ⟨10, _⟩ => ⟨S2x4096, .f32⟩
  | .hbm, ⟨11, _⟩ => ⟨S2x4096, .i1⟩
  | .hbm, ⟨12, _⟩ => ⟨S2x4096x1, .i1⟩
  | .hbm, ⟨13, _⟩ => ⟨S2x4096x1, .f32⟩
  | .hbm, ⟨14, _⟩ => ⟨S2x4096x4096, .f32⟩
  | .hbm, ⟨15, _⟩ => ⟨S2x4096x4096, .f32⟩
  | .hbm, ⟨16, _⟩ => ⟨S_, .f32⟩
  | .hbm, ⟨17, _⟩ => ⟨S2x4096x4096, .i1⟩
  | .hbm, ⟨18, _⟩ => ⟨S2x4096x4096, .f32⟩
  | .hbm, ⟨19, _⟩ => ⟨S2x4096x4096, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v10 : Ref sig .tc := ⟨.hbm, 19, rfl⟩

abbrev nD : Nat := 1
abbrev τ : Topo := Topo.v7x

variable {F : FTy → Type} [FloatOps F]

class Facts₀ : Prop where
  bcast_S_S2x4096x4096 : S_.BroadcastsInDim S2x4096x4096 (![] : Fin 0 → Fin S2x4096x4096.rank)
  bcast_S_S2x4096 : S_.BroadcastsInDim S2x4096 (![] : Fin 0 → Fin S2x4096.rank)
  bcast_S2x4096_S2x4096x1_0_1 : S2x4096.BroadcastsInDim S2x4096x1 (![0, 1] : Fin 2 → Fin S2x4096x1.rank)
  bcast_S2x4096x1_S2x4096x4096_0_1_2 : S2x4096x1.BroadcastsInDim S2x4096x4096 (![0, 1, 2] : Fin 3 → Fin S2x4096x4096.rank)
  dot_S2x4096x4096_S64x4096_S2x4096x64_2_1_01_0_n_n_wf : DotDims.WF S2x4096x4096 S64x4096 S2x4096x64 [2] [1] [0, 1] [0] [] []
  dot_S2x4096x64_S4096x64_S2x4096x4096_2_1_01_0_n_n_wf : DotDims.WF S2x4096x64 S4096x64 S2x4096x4096 [2] [1] [0, 1] [0] [] []

variable [Facts₀]

def dot_S2x4096x4096_S64x4096_S2x4096x64_2_1_01_0_n_n : DotDims S2x4096x4096 S64x4096 S2x4096x64 where
  lhsContracting := [2]
  rhsContracting := [1]
  lhsNonContracting := [0, 1]
  rhsNonContracting := [0]
  lhsBatch := []
  rhsBatch := []
  wf := dot_S2x4096x4096_S64x4096_S2x4096x64_2_1_01_0_n_n_wf
def dot_S2x4096x64_S4096x64_S2x4096x4096_2_1_01_0_n_n : DotDims S2x4096x64 S4096x64 S2x4096x4096 where
  lhsContracting := [2]
  rhsContracting := [1]
  lhsNonContracting := [0, 1]
  rhsNonContracting := [0]
  lhsBatch := []
  rhsBatch := []
  wf := dot_S2x4096x64_S4096x64_S2x4096x4096_2_1_01_0_n_n_wf

class Facts : Prop extends Facts₀ where

variable [Facts]
-- ==== Proof.Spec.lean ====
/-
  A gated low-rank update, index by index on the extended reals.

  For tokens `x[b,s,·]`, a gate `g[b,s]`, a down-projection `A[r,·]` and an up-projection `B[o,·]` the result is
  `g ≠ 0 ? g · ((Σ_r h_r · B[o,r]) · 1/8) : 0` with `h_r = Σ_d x[b,s,d] · A[r,d]`.  One arrangement scales the
  rank-64 intermediate before the second product, `Σ_r (h_r · (g ≠ 0 ? g · 1/8 : 0)) · B[o,r]`; the other scales the
  finished product.  Over the reals they agree: a scalar factor moves across a finite sum (distributivity), and a zero
  gate makes every term of the first arrangement zero.  On the extended reals distributivity fails at the infinities,
  so the law is stated for arrays of real numbers.
-/
import Idealize.ShloMosaic.PureOps.Ideal
import Idealize.ShloMosaic.PureOps.Ideal.Laws
import Idealize.ShloMosaic.Lib.ValueIdx

noncomputable section

namespace Cert.GatedLowRank

open Idealize.ShloMosaic Idealize.ShloMosaic.ValueIdx

/-- Tokens `[2, 4096, 4096]`, gates `[2, 4096]`, the down-projection `[64, 4096]`, the up-projection `[4096, 64]`. -/
abbrev Tokens : Shape := ⟨3, ![2, 4096, 4096]⟩
abbrev Gates : Shape := ⟨2, ![2, 4096]⟩
abbrev Down : Shape := ⟨2, ![64, 4096]⟩
abbrev Up : Shape := ⟨2, ![4096, 64]⟩

/-- The scale both programs spell, `0x3E000000`, is the real `1/8`. -/
theorem eighth : Ideal.ofBits .f32 0x3E000000#32 = ((1 / 8 : ℝ) : EReal) := by
  simp [Ideal.ofBits, Ideal.ieee, -EReal.coe_mul]; norm_num

/-- A finite sum of reals, read in the extended reals, is the sum of the readings. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The rank-64 intermediate: `h[b,s,r] = Σ_d x[b,s,d] · A[r,d]`. -/
def down (x : Tokens.Idx → EReal) (A : Down.Idx → EReal) (b : Fin 2) (s : Fin 4096) (r : Fin 64) : EReal :=
  ∑ d : Fin 4096, x (ix3 b s d) * A (ix2 r d)

/-- The gate's factor: `g · 1/8` where the gate is not zero, else `0`. -/
def factor (t : EReal) : EReal :=
  Scalar.select (Ideal.cmp .one t (Ideal.ofBits .f32 0x00000000#32)) (t * Ideal.ofBits .f32 0x3E000000#32)
    (Ideal.ofBits .f32 0x00000000#32)

/-- Scaling the intermediate: `Σ_r (h_r · factor g) · B[o,r]`. -/
def scaledInside (x : Tokens.Idx → EReal) (g : Gates.Idx → EReal) (A : Down.Idx → EReal) (B : Up.Idx → EReal)
    (b : Fin 2) (s : Fin 4096) (o : Fin 4096) : EReal :=
  ∑ r : Fin 64, (down x A b s r * factor (g (ix2 b s))) * B (ix2 o r)

/-- Scaling the finished product: `g ≠ 0 ? g · ((Σ_r h_r · B[o,r]) · 1/8) : 0`. -/
def scaledOutside (x : Tokens.Idx → EReal) (g : Gates.Idx → EReal) (A : Down.Idx → EReal) (B : Up.Idx → EReal)
    (b : Fin 2) (s : Fin 4096) (o : Fin 4096) : EReal :=
  Scalar.select (Ideal.cmp .une (g (ix2 b s)) (Ideal.ofBits .f32 0x00000000#32))
    (g (ix2 b s) * ((∑ r : Fin 64, down x A b s r * B (ix2 o r)) * Ideal.ofBits .f32 0x3E000000#32))
    (Ideal.ofBits .f32 0x00000000#32)

/-- The intermediate of real arrays is a real: the sum of the real products. -/
theorem down_coe (x : Tokens.Idx → ℝ) (A : Down.Idx → ℝ) (b : Fin 2) (s : Fin 4096) (r : Fin 64) :
    down (fun i => (x i : EReal)) (fun i => (A i : EReal)) b s r
      = ((∑ d : Fin 4096, x (ix3 b s d) * A (ix2 r d) : ℝ) : EReal) := by
  unfold down
  rw [coe_sum]
  exact Finset.sum_congr rfl fun d _ => (EReal.coe_mul _ _).symm

/-- THE LAW. On arrays of real numbers the two arrangements are one function. -/
theorem scaledInside_eq_scaledOutside (x : Tokens.Idx → ℝ) (g : Gates.Idx → ℝ) (A : Down.Idx → ℝ) (B : Up.Idx → ℝ)
    (b : Fin 2) (s : Fin 4096) (o : Fin 4096) :
    scaledInside (fun i => (x i : EReal)) (fun i => (g i : EReal)) (fun i => (A i : EReal)) (fun i => (B i : EReal)) b s o
      = scaledOutside (fun i => (x i : EReal)) (fun i => (g i : EReal)) (fun i => (A i : EReal)) (fun i => (B i : EReal)) b s o := by
  unfold scaledInside scaledOutside factor
  simp only [down_coe, eighth, Ideal.ofBits_zero_f32]
  by_cases ht : g (ix2 b s) = 0
  · have hc : ((g (ix2 b s) : ℝ) : EReal) = 0 := by rw [ht]; rfl
    simp [Ideal.cmp, Scalar.select, hc]
  · have hc : ((g (ix2 b s) : ℝ) : EReal) ≠ 0 := fun h => ht (EReal.coe_eq_zero.mp h)
    have h1 : Ideal.cmp .one ((g (ix2 b s) : ℝ) : EReal) 0 = 1#1 := by simp [Ideal.cmp, hc]
    have h2 : Ideal.cmp .une ((g (ix2 b s) : ℝ) : EReal) 0 = 1#1 := by simp [Ideal.cmp, hc]
    rw [h1, h2, ValueIdx.select_one, ValueIdx.select_one]
    simp only [← EReal.coe_mul, ← coe_sum]
    congr 1
    rw [Finset.sum_mul, Finset.mul_sum]
    exact Finset.sum_congr rfl fun r _ => by ring

end Cert.GatedLowRank

end
-- ==== Proof.Finite.lean ====
/-
  From the precondition to real entries.

  The precondition is the conjunction, over the four argument arrays, of "every entry's absolute value is below +∞".
  On the extended reals `|x| = max x (-x)`, which is `+∞` at both infinities, so an entry that passes the test is a
  real number.  A conjunction of four "all" tests that comes out true passed each test at every index.
-/
import proofs.«178576_g44822278701277_cont_8to1c4_472_9_alg».proof.Pre_finite_inputs
import proofs.«178576_g44822278701277_cont_8to1c4_472_9_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal

noncomputable section

namespace Cert.FiniteEntries

open Idealize.ShloMosaic Idealize.ShloMosaic.ValueIdx Cert.Pre_finite_inputs

/-- A rank-0 shape has one index. -/
instance : Subsingleton S_.Idx := ⟨fun a b => funext fun d => d.elim0⟩

/-- The pattern `0x7F800000` is `+∞`. -/
theorem inf_pattern : Ideal.ofBits .f32 0x7F800000#32 = (⊤ : EReal) := by
  simp [Ideal.ofBits, Ideal.ieee]

/-- An extended real whose absolute value is strictly below `+∞` is a real number. -/
theorem real_of_abs_lt (x : EReal) (h : Ideal.cmp .olt (max x (-x)) (Ideal.ofBits .f32 0x7F800000#32) = 1#1) :
    ∃ r : ℝ, x = (r : EReal) := by
  rw [inf_pattern] at h
  induction x using EReal.rec with
  | bot => simp [Ideal.cmp] at h
  | top => simp [Ideal.cmp] at h
  | coe r => exact ⟨r, rfl⟩

/-- The test at one index of an array of any shape. -/
theorem entry_real {s : Shape} (a : FVec Ideal s .f32) (hb : S_.BroadcastsInDim s (![] : Fin 0 → Fin s.rank)) (i : s.Idx)
    (h : cmpf .olt (Host.absf a) (broadcastInDim s ![] hb (constant S_ .f32 0x7F800000#32)) i = 1#1) :
    ∃ r : ℝ, a i = (r : EReal) := by
  have hinf : broadcastInDim s ![] hb (constant (F := Ideal) S_ .f32 0x7F800000#32) i = Ideal.ofBits .f32 0x7F800000#32 :=
    broadcastInDim_apply _ hb _ i (fun a => a.elim0) (fun a => a.elim0)
  rw [cmpf_apply, hinf] at h
  exact real_of_abs_lt (a i) h

/-- Under the precondition every entry of every argument array is a real number. -/
theorem entries_real (x : FVec Ideal S2x4096x4096 .f32) (g : FVec Ideal S2x4096 .f32) (A : FVec Ideal S64x4096 .f32)
    (B : FVec Ideal S4096x64 .f32) (h : fn (F := Ideal) x g A B = fun _ => 1#1) :
    (∀ i, ∃ r : ℝ, x i = (r : EReal)) ∧ (∀ i, ∃ r : ℝ, g i = (r : EReal))
      ∧ (∀ i, ∃ r : ℝ, A i = (r : EReal)) ∧ (∀ i, ∃ r : ℝ, B i = (r : EReal)) := by
  have h0 := congrFun h ix0
  dsimp only [fn, fn_part1] at h0
  obtain ⟨h012, hB⟩ := IntOp.andi_eq_one.1 h0
  obtain ⟨h01, hA⟩ := IntOp.andi_eq_one.1 h012
  obtain ⟨hx, hg⟩ := IntOp.andi_eq_one.1 h01
  exact ⟨fun i => entry_real x _ i (Host.reduce_andi_all _ _ _ _ ix0 hx i),
    fun i => entry_real g _ i (Host.reduce_andi_all _ _ _ _ ix0 hg i),
    fun i => entry_real A _ i (Host.reduce_andi_all _ _ _ _ ix0 hA i),
    fun i => entry_real B _ i (Host.reduce_andi_all _ _ _ _ ix0 hB i)⟩

end Cert.FiniteEntries

end
-- ==== Proof.RefValue.lean ====
/-
  The reference's result, index by index.

  Read one operation at a time, the reference's result at `(b, s, o)` is
  `g[b,s] ≠ 0 ? g[b,s] · ((Σ_r (Σ_d x[b,s,d] · A[r,d]) · B[o,r]) · 1/8) : 0`: the mask, the gate and the scale are
  broadcasts of a `[2, 4096]` array and of scalars, so each reads its operand at the index's leading coordinates,
  and the two contractions are sums over the last axis of their left operand and of their right operand.  That is
  the arrangement that scales the finished product.
-/
import proofs.«178576_g44822278701277_cont_8to1c4_472_9_alg».proof.Proof.Gen.ReferenceIdeal.Read
import proofs.«178576_g44822278701277_cont_8to1c4_472_9_alg».proof.Proof.Spec

noncomputable section

namespace Cert.ReferenceIdeal.AtIndex

open Idealize.ShloMosaic Idealize.ShloMosaic.ValueIdx Cert.ReferenceIdeal Cert.ReferenceIdeal.Read Cert.GatedLowRank

/-- The mask reads the gate at the index's two leading coordinates. -/
theorem mask_idx (i : S2x4096x4096.Idx) : idx_main_v6 (idx_main_call0_v0 i) = ix2 (i 0) (i 1) :=
  funext fun a => Fin.ext (by match a with | ⟨0, _⟩ => rfl | ⟨1, _⟩ => rfl)

/-- So does the broadcast gate. -/
theorem gate_idx (i : S2x4096x4096.Idx) : idx_main_v7 (idx_main_v8 i) = ix2 (i 0) (i 1) :=
  funext fun a => Fin.ext (by match a with | ⟨0, _⟩ => rfl | ⟨1, _⟩ => rfl)

/-- The outer contraction pairs the intermediate at `(b, s, r)` with the up-projection at `(o, r)`; -/
theorem up_idx (i : S2x4096x4096.Idx) (r : Fin 64) : ridx_main_v1 i r = ix2 (i 2) r :=
  funext fun a => Fin.ext (by match a with | ⟨0, _⟩ => rfl | ⟨1, _⟩ => rfl)

/-- the inner one pairs the token at `(b, s, d)` -/
theorem token_idx (i : S2x4096x4096.Idx) (r : Fin 64) (d : Fin 4096) :
    lidx_main_v0 (lidx_main_v1 i r) d = ix3 (i 0) (i 1) d :=
  funext fun a => Fin.ext (by match a with | ⟨0, _⟩ => rfl | ⟨1, _⟩ => rfl | ⟨2, _⟩ => rfl)

/-- with the down-projection at `(r, d)`. -/
theorem down_idx (i : S2x4096x4096.Idx) (r : Fin 64) (d : Fin 4096) :
    ridx_main_v0 (lidx_main_v1 i r) d = ix2 r d :=
  funext fun a => Fin.ext (by match a with | ⟨0, _⟩ => rfl | ⟨1, _⟩ => rfl)

/-- The reference's result is the arrangement that scales the finished product, at every index. -/
theorem result_eq (x : (⟨S2x4096x4096, .f32⟩ : BufTy).Contents (Elt Ideal)) (g : (⟨S2x4096, .f32⟩ : BufTy).Contents (Elt Ideal))
    (A : (⟨S64x4096, .f32⟩ : BufTy).Contents (Elt Ideal)) (B : (⟨S4096x64, .f32⟩ : BufTy).Contents (Elt Ideal)) :
    val_main_v10 (F := Ideal) x g A B = fun i => scaledOutside x g A B (i 0) (i 1) (i 2) := by
  funext i
  rw [val_main_v10_apply, val_main_call0_v0_apply, val_main_v6_apply, val_main_v5_apply, val_main_v4_apply,
    val_main_cst_0_apply, val_main_v9_apply, val_main_v8_apply, val_main_v7_apply, val_main_v3_apply,
    val_main_v1_apply, val_main_v2_apply, val_main_cst_apply, val_main_call0_v1_apply, val_main_cst_1_apply]
  simp only [val_main_v0_apply, mask_idx, gate_idx, up_idx, token_idx, down_idx]
  rfl

end Cert.ReferenceIdeal.AtIndex

end
-- ==== Proof.Flat.lean ====
/-
  The same update on flattened rows.  The region works on the tokens laid out as `[8192, 4096]` (row `p = b·4096 + s`)
  and the gates as a column `[8192, 1]`; row `p` of its result is
  `Σ_r ((Σ_d x2[p,d] · A[r,d]) · factor (g2[p,0])) · B[o,r]`.  Where the flattened arrays hold the entries of the
  `[2, 4096, 4096]` tokens and `[2, 4096]` gates at the matching positions, this is the inside-scaled arrangement
  at `(b, s, o)`.
-/
import proofs.«178576_g44822278701277_cont_8to1c4_472_9_alg».proof.Proof.Spec

noncomputable section

namespace Cert.GatedLowRank

open Idealize.ShloMosaic Idealize.ShloMosaic.ValueIdx

/-- The tokens as rows `[8192, 4096]`, the gates as a column `[8192, 1]`. -/
abbrev Rows : Shape := ⟨2, ![8192, 4096]⟩
abbrev GateColumn : Shape := ⟨2, ![8192, 1]⟩

/-- Row `p`'s rank-64 intermediate. -/
def rowDown (x2 : Rows.Idx → EReal) (A : Down.Idx → EReal) (p : Fin 8192) (r : Fin 64) : EReal :=
  ∑ d : Fin 4096, x2 (ix2 p d) * A (ix2 r d)

/-- Row `p`, column `o` of the region's result. -/
def rowResult (x2 : Rows.Idx → EReal) (g2 : GateColumn.Idx → EReal) (A : Down.Idx → EReal) (B : Up.Idx → EReal)
    (p : Fin 8192) (o : Fin 4096) : EReal :=
  ∑ r : Fin 64, (rowDown x2 A p r * factor (g2 (ix2 p 0))) * B (ix2 o r)

/-- Row `p` holds token `(b, s)`: the flattened form is the inside-scaled arrangement there. -/
theorem rowResult_eq_scaledInside (x : Tokens.Idx → EReal) (g : Gates.Idx → EReal) (A : Down.Idx → EReal) (B : Up.Idx → EReal)
    (x2 : Rows.Idx → EReal) (g2 : GateColumn.Idx → EReal) (b : Fin 2) (s : Fin 4096) (p : Fin 8192)
    (hx : ∀ d : Fin 4096, x2 (ix2 p d) = x (ix3 b s d)) (hg : g2 (ix2 p 0) = g (ix2 b s)) (o : Fin 4096) :
    rowResult x2 g2 A B p o = scaledInside x g A B b s o := by
  unfold rowResult scaledInside rowDown down
  simp only [hx, hg]

end Cert.GatedLowRank

end
-- ==== Proof.Payload.lean ====
/-
  What the body stores, read at an index.

  On a block of 512 rows the body forms `h = x · Aᵀ` (contracting the 4096 features), multiplies row `p` of `h` by
  the gate's factor for that row (the gate column broadcast along the 64 ranks), and forms `(h · factor) · Bᵀ`
  (contracting the 64 ranks).  At the exact values the changes of float format are the identity and a product
  accumulated into zero is the plain sum, so entry `(p, o)` is
  `Σ_r ((Σ_d x[p,d] · A[r,d]) · factor (g[p,0])) · B[o,r]`.
-/
import proofs.«178576_g44822278701277_cont_8to1c4_472_9_alg».proof.Proof.Gen.KernelIdeal.Skeleton
import proofs.«178576_g44822278701277_cont_8to1c4_472_9_alg».proof.Proof.Flat
import Idealize.ShloMosaic.Lib.Pipeline.Value
import Idealize.ShloMosaic.Lib.ValueIdx
import Idealize.ShloMosaic.PureOps.Ideal.Laws

noncomputable section

namespace Cert.KernelIdeal.BlockValue

open Idealize.ShloMosaic Idealize.ShloMosaic.ValueIdx Cert.KernelIdeal Cert.KernelIdeal.Gen Cert.GatedLowRank

/-! ## The first product: rows of the block against rows of the down-projection -/

theorem lhs_down_0 (i : S512x64.Idx) (q : dot_S512x4096_S64x4096_S512x64_1_1_0_0_n_n.contr.Idx) :
    (dot_S512x4096_S64x4096_S512x64_1_1_0_0_n_n.lhsIdx i q 0).val = (i 0).val := by
  unfold DotDims.lhsIdx
  rw [dif_neg (show ¬(0 : Fin S512x4096.rank) ∈ dot_S512x4096_S64x4096_S512x64_1_1_0_0_n_n.lhsBatch by decide), dif_pos (show (0 : Fin S512x4096.rank) ∈ dot_S512x4096_S64x4096_S512x64_1_1_0_0_n_n.lhsNonContracting by decide)]
  rfl
theorem lhs_down_1 (i : S512x64.Idx) (q : dot_S512x4096_S64x4096_S512x64_1_1_0_0_n_n.contr.Idx) :
    (dot_S512x4096_S64x4096_S512x64_1_1_0_0_n_n.lhsIdx i q 1).val = (q ⟨0, by decide⟩).val :=
  dot_S512x4096_S64x4096_S512x64_1_1_0_0_n_n.lhsIdx_val_of_single rfl i q
theorem rhs_down_0 (i : S512x64.Idx) (q : dot_S512x4096_S64x4096_S512x64_1_1_0_0_n_n.contr.Idx) :
    (dot_S512x4096_S64x4096_S512x64_1_1_0_0_n_n.rhsIdx i q 0).val = (i 1).val := by
  unfold DotDims.rhsIdx
  rw [dif_neg (show ¬(0 : Fin S64x4096.rank) ∈ dot_S512x4096_S64x4096_S512x64_1_1_0_0_n_n.rhsBatch by decide), dif_pos (show (0 : Fin S64x4096.rank) ∈ dot_S512x4096_S64x4096_S512x64_1_1_0_0_n_n.rhsNonContracting by decide)]
  rfl
theorem rhs_down_1 (i : S512x64.Idx) (q : dot_S512x4096_S64x4096_S512x64_1_1_0_0_n_n.contr.Idx) :
    (dot_S512x4096_S64x4096_S512x64_1_1_0_0_n_n.rhsIdx i q 1).val = (q ⟨0, by decide⟩).val :=
  dot_S512x4096_S64x4096_S512x64_1_1_0_0_n_n.rhsIdx_val_of_single rfl i q

/-- Entry `(p, r)` of the first product is `Σ_d l[p,d] · a[r,d]`. -/
theorem down_apply (l : FVec Ideal S512x4096 .bf16) (a : FVec Ideal S64x4096 .bf16) (p : Fin 512) (r : Fin 64) :
    matmul dot_S512x4096_S64x4096_S512x64_1_1_0_0_n_n none l a (constant S512x64 .f32 0x00000000#32) (ix2 p r)
      = ∑ d : Fin 4096, l (ix2 p d) * a (ix2 r d) := by
  simp only [matmul]
  rw [Ideal.matmul_constant_zero_apply, ← Equiv.sum_comp (contrEquiv1 dot_S512x4096_S64x4096_S512x64_1_1_0_0_n_n 4096 rfl rfl).symm]
  refine Finset.sum_congr rfl fun d _ => ?_
  have hk := contrEquiv1_symm_val dot_S512x4096_S64x4096_S512x64_1_1_0_0_n_n 4096 rfl rfl d
  have el : dot_S512x4096_S64x4096_S512x64_1_1_0_0_n_n.lhsIdx (ix2 p r) ((contrEquiv1 dot_S512x4096_S64x4096_S512x64_1_1_0_0_n_n 4096 rfl rfl).symm d) = ix2 p d := funext fun a => Fin.ext (by
    match a with
    | ⟨0, _⟩ => exact lhs_down_0 _ _
    | ⟨1, _⟩ => exact (lhs_down_1 _ _).trans hk)
  have er : dot_S512x4096_S64x4096_S512x64_1_1_0_0_n_n.rhsIdx (ix2 p r) ((contrEquiv1 dot_S512x4096_S64x4096_S512x64_1_1_0_0_n_n 4096 rfl rfl).symm d) = ix2 r d := funext fun a => Fin.ext (by
    match a with
    | ⟨0, _⟩ => exact rhs_down_0 _ _
    | ⟨1, _⟩ => exact (rhs_down_1 _ _).trans hk)
  rw [el, er]

/-! ## The second product: the scaled intermediate against rows of the up-projection -/

theorem lhs_up_0 (i : S512x4096.Idx) (q : dot_S512x64_S4096x64_S512x4096_1_1_0_0_n_n.contr.Idx) :
    (dot_S512x64_S4096x64_S512x4096_1_1_0_0_n_n.lhsIdx i q 0).val = (i 0).val := by
  unfold DotDims.lhsIdx
  rw [dif_neg (show ¬(0 : Fin S512x64.rank) ∈ dot_S512x64_S4096x64_S512x4096_1_1_0_0_n_n.lhsBatch by decide), dif_pos (show (0 : Fin S512x64.rank) ∈ dot_S512x64_S4096x64_S512x4096_1_1_0_0_n_n.lhsNonContracting by decide)]
  rfl
theorem lhs_up_1 (i : S512x4096.Idx) (q : dot_S512x64_S4096x64_S512x4096_1_1_0_0_n_n.contr.Idx) :
    (dot_S512x64_S4096x64_S512x4096_1_1_0_0_n_n.lhsIdx i q 1).val = (q ⟨0, by decide⟩).val :=
  dot_S512x64_S4096x64_S512x4096_1_1_0_0_n_n.lhsIdx_val_of_single rfl i q
theorem rhs_up_0 (i : S512x4096.Idx) (q : dot_S512x64_S4096x64_S512x4096_1_1_0_0_n_n.contr.Idx) :
    (dot_S512x64_S4096x64_S512x4096_1_1_0_0_n_n.rhsIdx i q 0).val = (i 1).val := by
  unfold DotDims.rhsIdx
  rw [dif_neg (show ¬(0 : Fin S4096x64.rank) ∈ dot_S512x64_S4096x64_S512x4096_1_1_0_0_n_n.rhsBatch by decide), dif_pos (show (0 : Fin S4096x64.rank) ∈ dot_S512x64_S4096x64_S512x4096_1_1_0_0_n_n.rhsNonContracting by decide)]
  rfl
theorem rhs_up_1 (i : S512x4096.Idx) (q : dot_S512x64_S4096x64_S512x4096_1_1_0_0_n_n.contr.Idx) :
    (dot_S512x64_S4096x64_S512x4096_1_1_0_0_n_n.rhsIdx i q 1).val = (q ⟨0, by decide⟩).val :=
  dot_S512x64_S4096x64_S512x4096_1_1_0_0_n_n.rhsIdx_val_of_single rfl i q

/-- Entry `(p, o)` of the second product is `Σ_r l[p,r] · b[o,r]`. -/
theorem up_apply (l : FVec Ideal S512x64 .bf16) (b : FVec Ideal S4096x64 .bf16) (p : Fin 512) (o : Fin 4096) :
    matmul dot_S512x64_S4096x64_S512x4096_1_1_0_0_n_n none l b (constant S512x4096 .f32 0x00000000#32) (ix2 p o)
      = ∑ r : Fin 64, l (ix2 p r) * b (ix2 o r) := by
  simp only [matmul]
  rw [Ideal.matmul_constant_zero_apply, ← Equiv.sum_comp (contrEquiv1 dot_S512x64_S4096x64_S512x4096_1_1_0_0_n_n 64 rfl rfl).symm]
  refine Finset.sum_congr rfl fun r _ => ?_
  have hk := contrEquiv1_symm_val dot_S512x64_S4096x64_S512x4096_1_1_0_0_n_n 64 rfl rfl r
  have el : dot_S512x64_S4096x64_S512x4096_1_1_0_0_n_n.lhsIdx (ix2 p o) ((contrEquiv1 dot_S512x64_S4096x64_S512x4096_1_1_0_0_n_n 64 rfl rfl).symm r) = ix2 p r := funext fun a => Fin.ext (by
    match a with
    | ⟨0, _⟩ => exact lhs_up_0 _ _
    | ⟨1, _⟩ => exact (lhs_up_1 _ _).trans hk)
  have er : dot_S512x64_S4096x64_S512x4096_1_1_0_0_n_n.rhsIdx (ix2 p o) ((contrEquiv1 dot_S512x64_S4096x64_S512x4096_1_1_0_0_n_n 64 rfl rfl).symm r) = ix2 o r := funext fun a => Fin.ext (by
    match a with
    | ⟨0, _⟩ => exact rhs_up_0 _ _
    | ⟨1, _⟩ => exact (rhs_up_1 _ _).trans hk)
  rw [el, er]

/-! ## The gate column along the ranks -/

/-- A `[512, 1]` column broadcast to `[512, 64]` reads row `p`'s one entry at every rank. -/
theorem column_apply {α : Type} (v : S512x1.Idx → α) (h : S512x1.Broadcasts S512x64) (p : Fin 512) (r : Fin 64) :
    broadcastTo S512x64 v h (ix2 p r) = v (ix2 p 0) :=
  broadcastTo_apply v h (ix2 p r) (ix2 p 0) (fun a => match a with
    | ⟨0, _⟩ => by show p.val = if (512 : Nat) = 1 then 0 else p.val; rw [if_neg (by decide)]
    | ⟨1, _⟩ => by show 0 = if (1 : Nat) = 1 then 0 else r.val; rw [if_pos rfl])

/-! ## The stored value -/

/-- Entry `(p, o)` of what the body stores, from the four blocks it loads. -/
theorem stored_apply (x : Vec Ideal S512x4096 .f32) (A : Vec Ideal S64x4096 .f32) (g : Vec Ideal S512x1 .f32)
    (B : Vec Ideal S4096x64 .f32) (p : Fin 512) (o : Fin 4096) :
    k0_pay1 x A g B (ix2 p o)
      = ∑ r : Fin 64, ((∑ d : Fin 4096, x (ix2 p d) * A (ix2 r d)) * factor (g (ix2 p 0))) * B (ix2 o r) := by
  unfold k0_pay1
  rw [up_apply]
  refine Finset.sum_congr rfl fun r _ => ?_
  rw [truncf_apply, truncf_apply, mulf_apply, down_apply, column_apply, shapeCast_self, shapeCast_self]
  rfl

end Cert.KernelIdeal.BlockValue

end
-- ==== Proof.ArrayValue.lean ====
/-
  The region's result array, and the program's result after the reshape that follows it.

  The region runs on the tokens flattened to rows `[8192, 4096]` and the gates to a column `[8192, 1]`.  Point `t` of
  its 16 points works on rows `512·t … 512·t + 511`: it reads those rows of the tokens and of the gate column, the
  whole down- and up-projections, and writes those rows of the result.  So what point `t` writes back is the
  restriction to its rows of ONE function of the arrays, `rowResult`, and since the 16 row bands tile the 8192 rows
  the array ends holding that function.  Row `b·4096 + s` of the flattened tokens is token `(b, s)`, and the final
  reshape reads row `b·4096 + s` back at `(b, s)`: the program's result at `(b, s, o)` is the arrangement that
  scales the rank-64 intermediate.
-/
import proofs.«178576_g44822278701277_cont_8to1c4_472_9_alg».proof.Proof.Gen.KernelIdeal.Frame
import proofs.«178576_g44822278701277_cont_8to1c4_472_9_alg».proof.Proof.Payload
import Idealize.ShloMosaic.Lib.Pipeline.Value
import Idealize.ShloMosaic.Lib.ValueIdx
import Idealize.ShloMosaic.Lib.StableHlo.Run

set_option maxRecDepth 16384

noncomputable section

namespace Cert.KernelIdeal.ArrayValue

open Idealize.ShloMosaic Idealize.ShloMosaic.TcCoe Idealize.ShloMosaic.ValueIdx Idealize.SL.Sem
open Cert.KernelIdeal Cert.KernelIdeal.Gen Cert.KernelIdeal.BlockValue Cert.GatedLowRank
open Idealize.ShloMosaic.Pipeline (Dat)

variable (m : (ℓ : Loc nD τ sig) → Buf (Elt Ideal) ℓ) (ρ : Dev nD → PrngReg)

/-- Every access of the body starts at the block's origin. -/
theorem origin : (![0, 0] : Fin 2 → Nat) = fun _ => 0 := funext fun a => by fin_cases a <;> rfl

/-- The block indices over the 16 points: the tokens, the gate column and the result move with the point along the
    rows; the two projections stay at their one block. -/
theorem block_indices : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 ∧ t.val < 16 :=
  (by decide +kernel : ∀ t : Fin grid0.N, _)

/-- Every band of 512 rows is some point's. -/
theorem band_onto : ∀ q : Fin 16, ∃ t : Fin cfg0.N, win0_4.index t = ![q.val, 0] :=
  (by decide +kernel : ∀ q : Fin 16, ∃ t : Fin grid0.N, win0_4.index t = ![q.val, 0])

/-- Row `p` of point `t`'s band is row `512·t + p` of the array. -/
def rowOf (t : Fin cfg0.N) (p : Fin 512) : Fin 8192 :=
  ⟨t.val * 512 + p.val, by have := (block_indices t).2.2.2.2.2.2.2.2.2.2; have := p.isLt; omega⟩

/-! ## The blocks the body loads, read off the arrays -/

theorem tokens_block (c : Dev nD) (t : Fin cfg0.N) (p : Fin 512) (d : Fin 4096) :
    iblk m c 0 t (ix2 p d) = V m c main_call0_v0 (ix2 (rowOf t p) d) := by
  obtain ⟨e0, e1, -⟩ := block_indices t
  show V m c main_call0_v0 (((cfg0.win 0).blk t).view.emb (ix2 p d)) = V m c main_call0_v0 (ix2 (rowOf t p) d)
  refine congrArg _ (funext fun a => Fin.ext ?_)
  match a with
  | ⟨0, _⟩ => show win0_0.index t (0 : Fin 2) * 512 + 1 * p.val = t.val * 512 + p.val; omega
  | ⟨1, _⟩ => show win0_0.index t (1 : Fin 2) * 4096 + 1 * d.val = d.val; omega

theorem gate_block (c : Dev nD) (t : Fin cfg0.N) (p : Fin 512) :
    iblk m c 1 t (ix2 p 0) = V m c main_call0_v1 (ix2 (rowOf t p) 0) := by
  obtain ⟨-, -, e0, e1, -⟩ := block_indices t
  show V m c main_call0_v1 (((cfg0.win 1).blk t).view.emb (ix2 p 0)) = V m c main_call0_v1 (ix2 (rowOf t p) 0)
  refine congrArg _ (funext fun a => Fin.ext ?_)
  match a with
  | ⟨0, _⟩ => show win0_1.index t (0 : Fin 2) * 512 + 1 * p.val = t.val * 512 + p.val; omega
  | ⟨1, _⟩ => show win0_1.index t (1 : Fin 2) * 1 + 1 * 0 = 0; omega

theorem down_block (c : Dev nD) (t : Fin cfg0.N) (r : Fin 64) (d : Fin 4096) :
    iblk m c 2 t (ix2 r d) = V m c main_arg2 (ix2 r d) := by
  obtain ⟨-, -, -, -, e0, e1, -⟩ := block_indices t
  show V m c main_arg2 (((cfg0.win 2).blk t).view.emb (ix2 r d)) = V m c main_arg2 (ix2 r d)
  refine congrArg _ (funext fun a => Fin.ext ?_)
  match a with
  | ⟨0, _⟩ => show win0_2.index t (0 : Fin 2) * 64 + 1 * r.val = r.val; omega
  | ⟨1, _⟩ => show win0_2.index t (1 : Fin 2) * 4096 + 1 * d.val = d.val; omega

theorem up_block (c : Dev nD) (t : Fin cfg0.N) (o : Fin 4096) (r : Fin 64) :
    iblk m c 3 t (ix2 o r) = V m c main_arg3 (ix2 o r) := by
  obtain ⟨-, -, -, -, -, -, e0, e1, -⟩ := block_indices t
  show V m c main_arg3 (((cfg0.win 3).blk t).view.emb (ix2 o r)) = V m c main_arg3 (ix2 o r)
  refine congrArg _ (funext fun a => Fin.ext ?_)
  match a with
  | ⟨0, _⟩ => show win0_3.index t (0 : Fin 2) * 4096 + 1 * o.val = o.val; omega
  | ⟨1, _⟩ => show win0_3.index t (1 : Fin 2) * 64 + 1 * r.val = r.val; omega

/-! ## What a point writes back -/

/-- The region's result as one function of the arrays the region finds. -/
def regionResult (c : Dev nD) : S8192x4096.Idx → EReal := fun i =>
  rowResult (V m c main_call0_v0) (V m c main_call0_v1) (V m c main_arg2) (V m c main_arg3) (i 0) (i 1)

/-- What point `t` writes back is its band of `regionResult`. -/
theorem flushed_eq (c : Dev nD) (t : Fin cfg0.N) :
    (dats m 0 c).flushed 4 t = ((cfg0.win 4).blk t).view.read (Elt Ideal) (regionResult m c) := by
  show (cfg0.win 4).cut (grid0.coords t) ((dats m 0 c).after 4 t) = _
  rw [after0_4]
  unfold out0_4
  rw [View.canon_unit_zero origin]
  simp only [View.ld_unit_zero (S := S512x4096) origin, View.ld_unit_zero (S := S64x4096) origin,
    View.ld_unit_zero (S := S512x1) origin, View.ld_unit_zero (S := S4096x64) origin]
  obtain ⟨-, -, -, -, -, -, -, -, e0, e1, -⟩ := block_indices t
  funext j
  obtain ⟨p, o, rfl⟩ : ∃ (p : Fin 512) (o : Fin 4096), j = ix2 p o := ⟨j 0, j 1, eq_ix2 j⟩
  have hrow : ((cfg0.win 4).blk t).view.emb (ix2 p o) = ix2 (rowOf t p) o := funext fun a => Fin.ext (by
    match a with
    | ⟨0, _⟩ => show win0_4.index t (0 : Fin 2) * 512 + 1 * p.val = t.val * 512 + p.val; omega
    | ⟨1, _⟩ => show win0_4.index t (1 : Fin 2) * 4096 + 1 * o.val = o.val; omega)
  show k0_pay1 (iblk m c 0 t) (iblk m c 2 t) (iblk m c 1 t) (iblk m c 3 t) (ix2 p o)
    = regionResult m c (((cfg0.win 4).blk t).view.emb (ix2 p o))
  rw [hrow]
  refine (stored_apply (iblk m c 0 t) (iblk m c 2 t) (iblk m c 1 t) (iblk m c 3 t) p o).trans ?_
  unfold regionResult rowResult rowDown
  simp only [tokens_block, gate_block, down_block, up_block]

/-! ## The array after the region -/

/-- An index of the array is in point `t`'s band iff each coordinate is in the band's range. -/
theorem mem_band (t : Fin cfg0.N) (i : S8192x4096.Idx) :
    i ∈ ((cfg0.win 4).blk t).view.set ↔ ∀ a : Fin 2, win0_4.index t a * S512x4096.size a ≤ (i a).val ∧ (i a).val < win0_4.index t a * S512x4096.size a + S512x4096.size a := by
  show i ∈ ((View.whole main_call0_v2).slice (win0_4.rect t)).set ↔ _
  rw [View.set_slice_whole, Rect.mem_set_unit]
  exact Iff.rfl

/-- Row `i` lies in the band of point `i / 512`: the bands tile the array. -/
theorem covered (i : S8192x4096.Idx) :
    ∃ t : Fin cfg0.N, (cfg0.win 4).flush t = true ∧ i ∈ ((cfg0.win 4).blk t).view.set := by
  have hi0 : (i 0).val < 8192 := (i 0).isLt
  have hi1 : (i 1).val < 4096 := (i 1).isLt
  obtain ⟨t, ht⟩ := band_onto ⟨(i 0).val / 512, by omega⟩
  have q0 : win0_4.index t (0 : Fin 2) = (i 0).val / 512 := congrFun ht 0
  have q1 : win0_4.index t (1 : Fin 2) = 0 := congrFun ht 1
  refine ⟨t, flush0_4 t, ?_⟩
  rw [mem_band]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 4096 ≤ (i 1).val ∧ (i 1).val < win0_4.index t (1 : Fin 2) * 4096 + 4096; omega

/-- The array the region writes ends holding `regionResult`. -/
theorem region_array (c : Dev nD) : (dats m 0 c).arrAt 4 cfg0.N = regionResult m c :=
  (dats m 0 c).arrAt_eq_of_cover 4 (regionResult m c) (fun t _ => flushed_eq m c t) covered

end Cert.KernelIdeal.ArrayValue

end
-- ==== Proof.Reshapes.lean ====
/-
  The two reshapes before the region.

  The tokens `[2, 4096, 4096]` are laid out as rows `[8192, 4096]` and the gates `[2, 4096]` as a column `[8192, 1]`.
  A reshape keeps the row-major position, so row `b·4096 + s` of the rows is token `(b, s)` and entry
  `b·4096 + s` of the column is gate `(b, s)`.
-/
import proofs.«178576_g44822278701277_cont_8to1c4_472_9_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Reshapes

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- Token `(b, s)` sits in row `b·4096 + s`. -/
def flatRow (b : Fin 2) (s : Fin 4096) : Fin 8192 :=
  ⟨b.val * 4096 + s.val, by have := b.isLt; have := s.isLt; omega⟩

/-- The rows the region finds are the tokens, reshaped. -/
theorem rows_eq (c : Dev nD) :
    (V m c main_call0_v0 : S8192x4096.Idx → EReal)
      = shapeCast S8192x4096 (m ((c : Thread nD τ).loc main_arg0)) shapeCasts_S2x4096x4096_S8192x4096 := by
  show StableHlo.after hostOps0 (fun b => m (c, b)) (Proc.devRef .tc main_call0_v0) = _
  after_results
  rfl

/-- The gate column the region finds is the gates, reshaped. -/
theorem gates_eq (c : Dev nD) :
    (V m c main_call0_v1 : S8192x1.Idx → EReal)
      = shapeCast S8192x1 (m ((c : Thread nD τ).loc main_arg1)) shapeCasts_S2x4096_S8192x1 := by
  show StableHlo.after hostOps0 (fun b => m (c, b)) (Proc.devRef .tc main_call0_v1) = _
  after_results
  rfl

/-- Row `b·4096 + s` of the rows, at feature `d`, is the token's entry `(b, s, d)`. -/
theorem rows_apply (c : Dev nD) (b : Fin 2) (s : Fin 4096) (d : Fin 4096) :
    V m c main_call0_v0 (ix2 (flatRow b s) d) = m ((c : Thread nD τ).loc main_arg0) (ix3 b s d) := by
  rw [rows_eq]
  exact shapeCast_apply _ _ _ _ (by
    show (S2x4096x4096.rowMajor (ix3 b s d)).val = (S8192x4096.rowMajor (ix2 (flatRow b s) d)).val
    rw [Shape.rowMajor_val_three, Shape.rowMajor_val_two]
    rfl)

/-- Entry `b·4096 + s` of the gate column is the gate `(b, s)`. -/
theorem gates_apply (c : Dev nD) (b : Fin 2) (s : Fin 4096) :
    V m c main_call0_v1 (ix2 (flatRow b s) 0) = m ((c : Thread nD τ).loc main_arg1) (ix2 b s) := by
  rw [gates_eq]
  exact shapeCast_apply _ _ _ _ (by
    show (S2x4096.rowMajor (ix2 b s)).val = (S8192x1.rowMajor (ix2 (flatRow b s) 0)).val
    rw [Shape.rowMajor_val_two, Shape.rowMajor_val_two]
    show b.val * 4096 + s.val = (b.val * 4096 + s.val) * 1 + 0
    omega)

end Cert.KernelIdeal.Reshapes

end
-- ==== Proof.KernelRun.lean ====
/-
  The program's run with its result named.

  After the region one reshape lays the `[8192, 4096]` array back out as `[2, 4096, 4096]`.  It keeps the row-major
  position, so the result at `(b, s, o)` is the region's array at row `b·4096 + s`, column `o`, and that row is
  token `(b, s)`'s: the result is the arrangement that scales the rank-64 intermediate, as a function of the four
  argument arrays as launched.
-/
import proofs.«178576_g44822278701277_cont_8to1c4_472_9_alg».proof.Proof.ArrayValue
import proofs.«178576_g44822278701277_cont_8to1c4_472_9_alg».proof.Proof.Reshapes

set_option maxRecDepth 16384

noncomputable section

namespace Cert.KernelIdeal.Program

open Idealize.ShloMosaic Idealize.ShloMosaic.TcCoe Idealize.ShloMosaic.ValueIdx Idealize.SL.Sem
open Cert.KernelIdeal Cert.KernelIdeal.Gen Cert.KernelIdeal.ArrayValue Cert.KernelIdeal.Reshapes Cert.GatedLowRank

variable (m : (ℓ : Loc nD τ sig) → Buf (Elt Ideal) ℓ) (ρ : Dev nD → PrngReg)

/-- After the final reshape the result buffer holds the region's array, reshaped. -/
theorem result_eq (c : Dev nD) :
    (Pipeline.afterTail₀ cfgs (dats m) 0 (V0 m) [hostOps1] c main_v0 : S2x4096x4096.Idx → EReal)
      = shapeCast S2x4096x4096 (regionResult m c) shapeCasts_S8192x4096_S2x4096x4096 := by
  unfold Pipeline.afterTail₀
  show StableHlo.after hostOps1 _ (Proc.devRef .tc main_v0) = _
  after_results
  have harr : Pipeline.withArrays spec0 c (V0 m c) (fun w => (dats m 0 c).arrAt w cfg0.N) (Proc.devRef .tc main_call0_v2)
      = regionResult m c :=
    (Pipeline.withArrays_arr spec0 launch0.win.arr_inj c _ _ 4).trans (region_array m c)
  rw [harr]
  rfl

/-- The result at `(b, s, o)`, from the argument arrays as launched. -/
theorem result_apply (c : Dev nD) (b : Fin 2) (s : Fin 4096) (o : Fin 4096) :
    Pipeline.afterTail₀ cfgs (dats m) 0 (V0 m) [hostOps1] c main_v0 (ix3 b s o)
      = scaledInside (m ((c : Thread nD τ).loc main_arg0)) (m ((c : Thread nD τ).loc main_arg1))
          (m ((c : Thread nD τ).loc main_arg2)) (m ((c : Thread nD τ).loc main_arg3)) b s o := by
  rw [result_eq]
  refine (shapeCast_apply _ _ (ix3 b s o) (ix2 (flatRow b s) o) (by
    show (S8192x4096.rowMajor (ix2 (flatRow b s) o)).val = (S2x4096x4096.rowMajor (ix3 b s o)).val
    rw [Shape.rowMajor_val_two, Shape.rowMajor_val_three]
    rfl)).trans ?_
  show rowResult (V m c main_call0_v0) (V m c main_call0_v1) (V m c main_arg2) (V m c main_arg3) (flatRow b s) o = _
  rw [V_main_arg2, V_main_arg3]
  exact rowResult_eq_scaledInside _ _ _ _ _ _ b s (flatRow b s) (fun d => rows_apply m c b s d) (gates_apply m c b s) o

/-- Every weakly fair execution terminates with the result buffer at the inside-scaled arrangement of the argument
    arrays, and the argument arrays unchanged. -/
theorem run : θ_run defs (onTc (τ := τ) (main (F := Ideal))) ⟨m, fun _ => 0, ρ⟩ fun r => ∀ c : Dev nD,
      r.2.mem ((c.tc : Thread nD τ).loc main_v0)
        = (fun i => scaledInside (m ((c.tc : Thread nD τ).loc main_arg0)) (m ((c.tc : Thread nD τ).loc main_arg1))
            (m ((c.tc : Thread nD τ).loc main_arg2)) (m ((c.tc : Thread nD τ).loc main_arg3)) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v0 (Pipeline.mem_restRefs_of main_v0 (by decide) (by decide))).trans
        (funext fun i => (congrArg _ (eq_ix3 i)).trans (result_apply m c (i 0) (i 1) (i 2))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.Program

end
-- ==== Proof.lean ====
/-
  A gated low-rank update: the kernel against its reference, over the extended reals.

  For tokens `x[b,s,·]`, gates `g[b,s]`, a down-projection `A` (64 × 4096) and an up-projection `B` (4096 × 64), both
  programs compute, with `h_r = Σ_d x[b,s,d] · A[r,d]`,

    the reference   `g ≠ 0 ? g · ((Σ_r h_r · B[o,r]) · 1/8) : 0`,
    the kernel      `Σ_r (h_r · (g ≠ 0 ? g · 1/8 : 0)) · B[o,r]`.

  The kernel applies the gate and the scale to the rank-64 intermediate, the reference to the finished product.  Moving
  the scalar factor across the sum over `r` is distributivity, which holds over the reals and fails at the infinities
  of the extended reals; so the precondition is used: every entry of every argument array is finite, hence a real
  number, and on real arrays the two arrangements are one function.  Where the gate is zero every term of the kernel's
  sum is zero and the reference selects zero.  The changes of float format inside the kernel are the identity at the
  exact values, a product accumulated into zero is the plain sum, and "ordered and not equal" and "unordered or not
  equal" are both "not equal" where there is no NaN.

  The kernel works on the tokens flattened to 8192 rows in 16 bands of 512 rows; the bands tile the rows, so the
  array it writes is one function of its inputs, and the reshapes before and after it keep the row-major position.
  The idealized kernel is the printed kernel's own text read at the exact values: the pass rewrote nothing.
-/
import proofs.«178576_g44822278701277_cont_8to1c4_472_9_alg».proof.Defs
import proofs.«178576_g44822278701277_cont_8to1c4_472_9_alg».proof.Proof.Gen.Kernel
import proofs.«178576_g44822278701277_cont_8to1c4_472_9_alg».proof.Proof.Gen.Kernel.Frame
import proofs.«178576_g44822278701277_cont_8to1c4_472_9_alg».proof.Proof.Gen.KernelIdeal
import proofs.«178576_g44822278701277_cont_8to1c4_472_9_alg».proof.Proof.Gen.KernelIdeal.Frame
import proofs.«178576_g44822278701277_cont_8to1c4_472_9_alg».proof.Proof.Gen.ReferenceIdeal
import proofs.«178576_g44822278701277_cont_8to1c4_472_9_alg».proof.Proof.Gen.ReferenceIdeal.Run
import proofs.«178576_g44822278701277_cont_8to1c4_472_9_alg».proof.Proof.Gen.ReferenceIdeal.Read
import proofs.«178576_g44822278701277_cont_8to1c4_472_9_alg».proof.Proof.Gen.Pre_finite_inputs
import proofs.«178576_g44822278701277_cont_8to1c4_472_9_alg».proof.Proof.Spec
import proofs.«178576_g44822278701277_cont_8to1c4_472_9_alg».proof.Proof.Finite
import proofs.«178576_g44822278701277_cont_8to1c4_472_9_alg».proof.Proof.RefValue
import proofs.«178576_g44822278701277_cont_8to1c4_472_9_alg».proof.Proof.KernelRun
import Idealize.ShloMosaic.Adequacy
import Idealize.ShloMosaic.Init

noncomputable section

namespace Cert.Proof

open Idealize.ShloMosaic Idealize.ShloMosaic.TcCoe Idealize.SL.Sem Cert.GatedLowRank

/-- The printed kernel runs to the end, faults nowhere and leaves its arguments as they were. -/
theorem frame_kernel : Cert.frame_Kernel := fun m ρ _ => Cert.Kernel.Gen.frame m ρ

/-- So does its reading at the exact values. -/
theorem frame_kernel_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealizing pass rewrote no operation. -/
theorem preserves : Cert.preserves_Kernel_KernelIdeal := trivial

/-- Under the precondition the two arrangements are one function of the argument arrays: the entries are reals, and
    there the law of `Cert.GatedLowRank` applies at every index. -/
theorem arrangements_agree (x : Tokens.Idx → EReal) (g : Gates.Idx → EReal) (A : Down.Idx → EReal) (B : Up.Idx → EReal)
    (h : Cert.Pre_finite_inputs.fn (F := Ideal) x g A B = fun _ => 1#1) :
    (fun i : Tokens.Idx => scaledOutside x g A B (i 0) (i 1) (i 2))
      = fun i : Tokens.Idx => scaledInside x g A B (i 0) (i 1) (i 2) := by
  obtain ⟨hx, hg, hA, hB⟩ := Cert.FiniteEntries.entries_real x g A B h
  choose xR hxR using hx
  choose gR hgR using hg
  choose aR haR using hA
  choose bR hbR using hB
  obtain rfl : x = fun i => (xR i : EReal) := funext hxR
  obtain rfl : g = fun i => (gR i : EReal) := funext hgR
  obtain rfl : A = fun i => (aR i : EReal) := funext haR
  obtain rfl : B = fun i => (bR i : EReal) := funext hbR
  funext i
  exact (scaledInside_eq_scaledOutside xR gR aR bR (i 0) (i 1) (i 2)).symm

/-- On finite inputs the kernel's result (scale inside the sum) and the reference's (scale outside) are equal at every
    index, both as functions of arguments that agree. -/
theorem algebraic : Cert.algebraic_KernelIdeal_ReferenceIdeal := by
  intro m ρ m' ρ' hpre hagree
  refine ⟨_, Cert.KernelIdeal.Program.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v10_eq _ _ _ _).trans
    ((Cert.ReferenceIdeal.AtIndex.result_eq _ _ _ _).trans (arrangements_agree _ _ _ _ (hpre c)))

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
